-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8192x1024 .f32) (main_arg1 : FVec F S1024x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [0] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1024x4096, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S1024x4096_S4096_d0 : S1024x4096.ReducesTo [0] S4096
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The squared distance between a row of `x` and a column of `w`, expanded:
      ‖x[r,·]‖² − 2 · ⟨x[r,·], w[·,s]⟩ + ‖w[·,s]‖²
  as ONE function of the two argument arrays, entry by entry, on the extended reals. Both programs compute
  exactly this expression, in this grouping — (‖x‖² − 2·⟨x,w⟩) + ‖w‖² — and with `2` the left factor, so no
  law of arithmetic beyond `0 + a = a` is needed to join them, and the expression is meaningful at the
  infinities too. The literal `2.0` is kept as its word: the same word stands on both sides and is never
  evaluated.
-/
import Idealize.ShloMosaic.PureOps.Ideal
import Idealize.ShloMosaic.Lib.ValueIdx

noncomputable section

namespace Cert.SqDist

open Idealize.ShloMosaic Idealize.ShloMosaic.ValueIdx

/-- The f32 word of `2.0`, read at the extended reals. -/
abbrev two : EReal := Ideal.ofBits .f32 0x40000000#32

/-- The three sums over the shared axis `k`, for a row `r` of `x` and a column `s` of `w`, combined as
    (‖x[r]‖² − 2·⟨x[r], w[·,s]⟩) + ‖w[·,s]‖². Generic in the three extents. -/
def at_ {B K O : ℕ} (x : (⟨2, ![B, K]⟩ : Shape).Idx → EReal) (w : (⟨2, ![K, O]⟩ : Shape).Idx → EReal)
    (r : Fin B) (s : Fin O) : EReal :=
  ((∑ k : Fin K, x (ix2 r k) * x (ix2 r k)) - two * ∑ k : Fin K, x (ix2 r k) * w (ix2 k s))
    + ∑ k : Fin K, w (ix2 k s) * w (ix2 k s)

/-- The whole result array: entry `(r, s)` is the expanded squared distance of row `r` of `x` and column `s` of `w`. -/
def arr (x : (⟨2, ![8192, 1024]⟩ : Shape).Idx → EReal) (w : (⟨2, ![1024, 4096]⟩ : Shape).Idx → EReal) :
    (⟨2, ![8192, 4096]⟩ : Shape).Idx → EReal :=
  fun i => at_ x w (i 0 : Fin 8192) (i 1 : Fin 4096)

theorem arr_ix2 (x : (⟨2, ![8192, 1024]⟩ : Shape).Idx → EReal) (w : (⟨2, ![1024, 4096]⟩ : Shape).Idx → EReal)
    (r : Fin 8192) (s : Fin 4096) : arr x w (ix2 r s) = at_ x w r s := rfl

end Cert.SqDist

end
-- ==== Proof.RefValue.lean ====
/-
  The reference's result is the expanded squared distance. Read one operation at a time, entry `(r, s)` of the
  reference's result is
      ((0 + Σₖ x[r,k]·x[r,k]) − 2 · Σₖ x[r,k]·w[k,s]) + (0 + Σₖ w[k,s]·w[k,s]):
  the two sums of squares are host reductions from an initial value that is the zero word, the cross term is the
  host's `dot_general` (a plain sum over the contracted axis), and the broadcasts only forget a coordinate.
  Dropping the two zeros (`0 + a = a`, true of every extended real) leaves the specification.
-/
import proofs.«134107_j16320875725288_1_alg».proof.Proof.Gen.ReferenceIdeal.Read
import proofs.«134107_j16320875725288_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Where each stage reads its operand, at entry `(r, s)` of the result -/

/-- The row sum of squares is read, through its two broadcasts, at row `r` and summand `k`: entry `(r, k)` of `x`. -/
theorem idx_rowsq (r : Fin 8192) (s : Fin 4096) (k : Fin 1024) :
    idx_main_v1 (idx_main_v2 (idx_main_v8 (ix2 r s))) k = ix2 r k :=
  funext fun a => Fin.ext (by match a with | ⟨0, _⟩ => rfl | ⟨1, _⟩ => rfl)

/-- The column sum of squares is read, through its two broadcasts, at column `s` and summand `k`: entry `(k, s)` of `w`. -/
theorem idx_colsq (r : Fin 8192) (s : Fin 4096) (k : Fin 1024) :
    idx_main_v4 (idx_main_v10 (idx_main_v11 (ix2 r s))) k = ix2 k s :=
  funext fun a => Fin.ext (by match a with | ⟨0, _⟩ => rfl | ⟨1, _⟩ => rfl)

/-- The product's left factor at `(r, s)`, summand `k`: entry `(r, k)` of `x`. -/
theorem idx_dot_l (r : Fin 8192) (s : Fin 4096) (k : Fin 1024) : lidx_main_v5 (ix2 r s) k = ix2 r k :=
  funext fun a => Fin.ext (by match a with | ⟨0, _⟩ => rfl | ⟨1, _⟩ => rfl)

/-- The product's right factor at `(r, s)`, summand `k`: entry `(k, s)` of `w`. -/
theorem idx_dot_r (r : Fin 8192) (s : Fin 4096) (k : Fin 1024) : ridx_main_v5 (ix2 r s) k = ix2 k s :=
  funext fun a => Fin.ext (by match a with | ⟨0, _⟩ => rfl | ⟨1, _⟩ => rfl)

/-! ## The reference's last stage is the specification -/

/-- Entry by entry the reference's result is (‖x[r]‖² − 2·⟨x[r], w[·,s]⟩) + ‖w[·,s]‖², the two host sums' zero
    initial values dropped. -/
theorem result_eq (x0 : (⟨S8192x1024, .f32⟩ : BufTy).Contents (Elt Ideal))
    (x1 : (⟨S1024x4096, .f32⟩ : BufTy).Contents (Elt Ideal)) :
    val_main_v12 (F := Ideal) x0 x1 = Cert.SqDist.arr x0 x1 := by
  funext i
  obtain ⟨r, s, rfl⟩ : ∃ (r : Fin 8192) (s : Fin 4096), i = ix2 r s := ⟨i 0, i 1, eq_ix2 i⟩
  rw [val_main_v12_apply, val_main_v9_apply, val_main_v8_apply, val_main_v2_apply, val_main_v1_apply,
    val_main_v7_apply, val_main_v6_apply, val_main_v5_apply, val_main_v11_apply, val_main_v10_apply,
    val_main_v4_apply, Cert.SqDist.arr_ix2]
  simp only [val_main_v0_apply, val_main_v3_apply, val_main_cst_apply, val_main_cst_0_apply, val_main_cst_1_apply,
    idx_rowsq, idx_colsq, idx_dot_l, idx_dot_r, Ideal.addf_def, Ideal.subf_def, Ideal.mulf_def, Ideal.ofBits_def,
    Ideal.ofBits_zero_f32, zero_add]
  rfl

end Cert.ReferenceIdeal.RefValue

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Payload.lean ====
/-
  One block of the kernel's result, entry by entry. The body loads a 512×1024 block `xb` of `x` and a 1024×1024
  block `wb` of `w` and stores
      (rowsq − 2 · cross) + colsq
  where `rowsq` is the lane sum of `xb·xb` kept as a column and laid across the columns, `colsq` the sublane sum of
  `wb·wb` kept as a row and laid down the rows, and `cross` the matrix product of the two blocks (their change of
  format to bf16 is the identity on extended reals) accumulated into a zero splat. Read at entry `(p, q)` of the
  block each of the three is a plain sum over the shared axis, so the entry is the expanded squared distance of
  row `p` of `xb` and column `q` of `wb`.
-/
import proofs.«134107_j16320875725288_1_alg».proof.Proof.Gen.KernelIdeal.Skeleton
import proofs.«134107_j16320875725288_1_alg».proof.Proof.Spec
import proofs.«134107_j16320875725288_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx

/-! ## The two sums of squares -/

/-- The lane sum of `y·y` over a 512×1024 block, kept as a column and laid across 1024 columns, reads at `(p, q)`
    the sum over `k` of the squares in row `p`. -/
theorem rowsq_apply (y : FVec Ideal S512x1024 .f32) (p : Fin 512) (q : Fin 1024) :
    broadcastTo S512x1024
        (shapeCast S512x1 (multiReduction .add [1] S512 (mulf y y) 0x00000000#32 reduces_S512x1024_S512 (.inl rfl) rfl)
          shapeCasts_S512_S512x1)
        broadcasts_S512x1_S512x1024 (ix2 p q)
      = ∑ k : Fin 1024, y (ix2 p k) * y (ix2 p k) :=
  (Cert.LibColumn.broadcastTo_column_apply _ shapeCasts_S512_S512x1 broadcasts_S512x1_S512x1024 p q).trans
    ((Ideal.multiReduction_add_single (mulf y y) 0x00000000#32 reduces_S512x1024_S512 (.inl rfl) rfl (ix1 p)).trans
      (Finset.sum_congr rfl fun k _ =>
        congrArg (fun i => y i * y i)
          (funext fun a => Fin.ext (by match a with | ⟨0, _⟩ => rfl | ⟨1, _⟩ => rfl))))

/-- The sublane sum of `y·y` over a 1024×1024 block, kept as a row and laid down 512 rows, reads at `(p, q)` the
    sum over `k` of the squares in column `q`. -/
theorem colsq_apply (y : FVec Ideal S1024x1024 .f32) (p : Fin 512) (q : Fin 1024) :
    broadcastTo S512x1024
        (shapeCast S1x1024 (multiReduction .add [0] S1024 (mulf y y) 0x00000000#32 reduces_S1024x1024_S1024 (.inl rfl) rfl)
          shapeCasts_S1024_S1x1024)
        broadcasts_S1x1024_S512x1024 (ix2 p q)
      = ∑ k : Fin 1024, y (ix2 k q) * y (ix2 k q) :=
  (broadcastTo_1b_ab_apply _ broadcasts_S1x1024_S512x1024 p q).trans
    ((shapeCast_a_1a_apply _ shapeCasts_S1024_S1x1024 (0 : Fin 1) q).trans
      ((Ideal.multiReduction_add_single (mulf y y) 0x00000000#32 reduces_S1024x1024_S1024 (.inl rfl) rfl (ix1 q)).trans
        (Finset.sum_congr rfl fun k _ =>
          congrArg (fun i => y i * y i)
            (funext fun a => Fin.ext (by match a with | ⟨0, _⟩ => rfl | ⟨1, _⟩ => rfl)))))

/-! ## The cross term -/

/-- The product's left operand index at output `i`, contraction `c`: row `i 0`, … -/
theorem lhs_blk_0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- … column the contraction coordinate. -/
theorem lhs_blk_1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
/-- The right operand index: row the contraction coordinate, … -/
theorem rhs_blk_0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
/-- … column `i 1`. -/
theorem rhs_blk_1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The blocks' matrix product into a zero accumulator reads at `(p, q)` the sum over `k` of row `p` of the left
    block against column `q` of the right one. -/
theorem cross_apply (a : FVec Ideal S512x1024 .bf16) (b : FVec Ideal S1024x1024 .bf16) (p : Fin 512) (q : Fin 1024) :
    matmul dot_S512x1024_S1024x1024_S512x1024_1_0_0_1_n_n none a b (constant S512x1024 .f32 0x00000000#32) (ix2 p q)
      = ∑ k : Fin 1024, a (ix2 p k) * b (ix2 k q) := by
  refine (Ideal.matmul_constant_zero_apply dot_S512x1024_S1024x1024_S512x1024_1_0_0_1_n_n none a b (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q)
      ((ValueIdx.contrEquiv1 dot_S512x1024_S1024x1024_S512x1024_1_0_0_1_n_n 1024 rfl rfl).symm k) = ix2 p k :=
    funext fun ax => Fin.ext (by
      match ax with
      | ⟨0, _⟩ => exact lhs_blk_0 _ _
      | ⟨1, _⟩ => exact (lhs_blk_1 _ _).trans hk)
  have er : dot_S512x1024_S1024x1024_S512x1024_1_0_0_1_n_n.rhsIdx (ix2 p q)
      ((ValueIdx.contrEquiv1 dot_S512x1024_S1024x1024_S512x1024_1_0_0_1_n_n 1024 rfl rfl).symm k) = ix2 k q :=
    funext fun ax => Fin.ext (by
      match ax with
      | ⟨0, _⟩ => exact (rhs_blk_0 _ _).trans hk
      | ⟨1, _⟩ => exact rhs_blk_1 _ _)
  rw [el, er]

/-! ## The payload at an entry -/

/-- Entry `(p, q)` of what the body stores is (‖xb[p]‖² − 2·⟨xb[p], wb[·,q]⟩) + ‖wb[·,q]‖²: the specification's
    expression over the two loaded blocks. -/
theorem pay_apply (xb : FVec Ideal S512x1024 .f32) (wb : FVec Ideal S1024x1024 .f32) (p : Fin 512) (q : Fin 1024) :
    k0_pay1 (F := Ideal) xb wb (ix2 p q) = Cert.SqDist.at_ xb wb p q := by
  unfold k0_pay1 Cert.SqDist.at_
  dsimp only
  refine (addf_apply _ _ _).trans ?_
  refine congrArg₂ (· + ·) ?_ (colsq_apply wb p q)
  refine (subf_apply _ _ _).trans ?_
  refine congrArg₂ (· - ·) (rowsq_apply xb p q) ?_
  refine (mulf_apply _ _ _).trans ?_
  exact congrArg₂ (· * ·) rfl (cross_apply _ _ p q)

end Cert.KernelIdeal.Block

end
-- ==== Proof.KernelValue.lean ====
/-
  From blocks to the whole array. The grid has 4 × 16 points; at the point with coordinates `(j, i)` the kernel
  reads rows `512·i … 512·i + 511` of `x` (all 1024 columns), columns `1024·j … 1024·j + 1023` of `w` (all 1024
  rows), and writes the 512 × 1024 block of the result at block position `(i, j)`. Entry `(p, q)` of that block
  is the expanded squared distance of row `p` of the `x` block and column `q` of the `w` block, that is of row
  `512·i + p` of `x` and column `1024·j + q` of `w`: the block is the restriction of ONE whole-array function.
  The 64 blocks tile the 8192 × 4096 result (entry `(r, s)` lies in the block at `(r / 512, s / 1024)`), so
  after the run the result array is that function everywhere.
-/
import proofs.«134107_j16320875725288_1_alg».proof.Proof.Gen.KernelIdeal.Value
import proofs.«134107_j16320875725288_1_alg».proof.Proof.Payload

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps over the grid -/

theorem hz : (![0, 0] : Fin 2 → Nat) = fun _ => 0 := funext fun a => by fin_cases a <;> rfl

/-- Decided over the 64 points: the `x` window sits at the result window's block row and at block column `0`;
    the `w` window at block row `0` and at the result window's block column; the result's block row is at most
    `15` and its block column at most `3`. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every block position `(i, j)` of the 16 × 4 tiling is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-! ## The arrays and the blocks, at their literal types -/

/-- The argument `x` as the region finds it. -/
abbrev xarr (c : Dev nD) : FVec Ideal S8192x1024 .f32 := V m c main_arg0
/-- The argument `w` as the region finds it. -/
abbrev warr (c : Dev nD) : FVec Ideal S1024x4096 .f32 := V m c main_arg1
/-- The block of `x` the body loads at point `t`. -/
abbrev xblk (c : Dev nD) (t : Fin cfg0.N) : FVec Ideal S512x1024 .f32 := iblk m c 0 t
/-- The block of `w` the body loads at point `t`. -/
abbrev wblk (c : Dev nD) (t : Fin cfg0.N) : FVec Ideal S1024x1024 .f32 := iblk m c 1 t

/-- The row of the result (and of `x`) that row `p` of point `t`'s block is. -/
def rowOf (t : Fin cfg0.N) (p : Fin 512) : Fin 8192 :=
  ⟨win0_2.index t (0 : Fin 2) * 512 + p.val, by have := (idx_facts t).2.2.2.2.1; have := p.isLt; omega⟩
/-- The column of the result (and of `w`) that column `q` of point `t`'s block is. -/
def colOf (t : Fin cfg0.N) (q : Fin 1024) : Fin 4096 :=
  ⟨win0_2.index t (1 : Fin 2) * 1024 + q.val, by have := (idx_facts t).2.2.2.2.2; have := q.isLt; omega⟩

/-- Entry `(p, k)` of the loaded `x` block is entry `(rowOf t p, k)` of `x`. -/
theorem xblk_apply (c : Dev nD) (t : Fin cfg0.N) (p : Fin 512) (k : Fin 1024) :
    xblk m c t (ix2 p k) = xarr m c (ix2 (rowOf t p) k) := by
  show V m c main_arg0 (((cfg0.win 0).blk t).view.emb (ix2 p k)) = V m c main_arg0 (ix2 (rowOf t p) k)
  refine congrArg _ (funext fun a => Fin.ext ?_)
  obtain ⟨e0, e1, e2, e3, e4, e5⟩ := idx_facts t
  match a with
  | ⟨0, _⟩ => show win0_0.index t (0 : Fin 2) * 512 + 1 * p.val = win0_2.index t (0 : Fin 2) * 512 + p.val; omega
  | ⟨1, _⟩ => show win0_0.index t (1 : Fin 2) * 1024 + 1 * k.val = k.val; omega

/-- Entry `(k, q)` of the loaded `w` block is entry `(k, colOf t q)` of `w`. -/
theorem wblk_apply (c : Dev nD) (t : Fin cfg0.N) (k : Fin 1024) (q : Fin 1024) :
    wblk m c t (ix2 k q) = warr m c (ix2 k (colOf t q)) := by
  show V m c main_arg1 (((cfg0.win 1).blk t).view.emb (ix2 k q)) = V m c main_arg1 (ix2 k (colOf t q))
  refine congrArg _ (funext fun a => Fin.ext ?_)
  obtain ⟨e0, e1, e2, e3, e4, e5⟩ := idx_facts t
  match a with
  | ⟨0, _⟩ => show win0_1.index t (0 : Fin 2) * 1024 + 1 * k.val = k.val; omega
  | ⟨1, _⟩ => show win0_1.index t (1 : Fin 2) * 1024 + 1 * q.val = win0_2.index t (1 : Fin 2) * 1024 + q.val; omega

/-- Entry `(p, q)` of point `t`'s result block sits at `(rowOf t p, colOf t q)` of the result array. -/
theorem oblk_emb (t : Fin cfg0.N) (p : Fin 512) (q : Fin 1024) :
    ((cfg0.win 2).blk t).view.emb (ix2 p q) = ix2 (rowOf t p) (colOf t q) := by
  refine funext fun a => Fin.ext ?_
  match a with
  | ⟨0, _⟩ => show win0_2.index t (0 : Fin 2) * 512 + 1 * p.val = win0_2.index t (0 : Fin 2) * 512 + p.val; omega
  | ⟨1, _⟩ => show win0_2.index t (1 : Fin 2) * 1024 + 1 * q.val = win0_2.index t (1 : Fin 2) * 1024 + q.val; omega

/-! ## What a point writes back -/

/-- The expanded squared distance over the two loaded blocks, at `(p, q)`, is the one over the whole arrays at
    `(rowOf t p, colOf t q)`: the same three sums over `k`, term by term. -/
theorem at_blk (c : Dev nD) (t : Fin cfg0.N) (p : Fin 512) (q : Fin 1024) :
    Cert.SqDist.at_ (xblk m c t) (wblk m c t) p q = Cert.SqDist.at_ (xarr m c) (warr m c) (rowOf t p) (colOf t q) := by
  unfold Cert.SqDist.at_
  simp only [xblk_apply, wblk_apply]

/-- WHAT POINT `t` WRITES BACK is block `t` of the specification over the argument arrays as the region finds them. -/
theorem flushed_eq (c : Dev nD) (t : Fin cfg0.N) :
    (dats m 0 c).flushed 2 t
      = ((cfg0.win 2).blk t).view.read (Elt Ideal) (Cert.SqDist.arr (V m c main_arg0) (V m c main_arg1)) := by
  rw [flushed2]
  unfold out0_2
  rw [View.canon_unit_zero hz]
  simp only [View.ld_unit_zero (S := S512x1024) hz, View.ld_unit_zero (S := S1024x1024) hz]
  refine funext fun (j : S512x1024.Idx) => ?_
  obtain ⟨p, q, rfl⟩ : ∃ (p : Fin 512) (q : Fin 1024), j = ix2 p q := ⟨j 0, j 1, eq_ix2 j⟩
  show k0_pay1 (F := Ideal) (xblk m c t) (wblk m c t) (ix2 p q)
    = Cert.SqDist.arr (xarr m c) (warr m c) (((cfg0.win 2).blk t).view.emb (ix2 p q))
  rw [oblk_emb, Cert.SqDist.arr_ix2]
  exact (Cert.KernelIdeal.Block.pay_apply (xblk m c t) (wblk m c t) p q).trans (at_blk m c t p q)

/-! ## The blocks cover the result -/

/-- An index of the result is in point `t`'s block iff each coordinate is in the block's range on its axis. -/
theorem mem_blk (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every entry `(r, s)` of the result lies in the block of the point at block position `(r / 512, s / 1024)`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-! ## The array after the run, and the run -/

/-- THE RESULT ARRAY after the run is the specification of the argument arrays. -/
theorem final (c : Dev nD) :
    (dats m 0 c).arrAt 2 cfg0.N
      = Cert.SqDist.arr (m ((c : Thread nD τ).loc main_arg0)) (m ((c : Thread nD τ).loc main_arg1)) :=
  (dats m 0 c).arrAt_eq_of_cover 2 (Cert.SqDist.arr (V m c main_arg0) (V m c main_arg1))
    (fun t _ => flushed_eq m c t) cover

/-- Every weakly fair execution of the idealized kernel terminates with the result array at the specification of
    the arguments as launched, and the arguments unchanged. -/
theorem run : θ_run defs (onTc (τ := τ) (main (F := Ideal))) ⟨m, fun _ => 0, ρ⟩ fun r => ∀ c : Dev nD,
      r.2.mem ((c : Thread nD τ).loc main_v0)
        = Cert.SqDist.arr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.lean ====
/-
  The kernel computes the matrix of squared distances between the rows of `x` (8192 × 1024) and the columns of
  `w` (1024 × 4096) by the expansion
      out[r, s] = (‖x[r,·]‖² − 2 · ⟨x[r,·], w[·,s]⟩) + ‖w[·,s]‖²,
  one 512 × 1024 block of the result per grid point, the cross term a matrix product of the two loaded blocks; the
  reference computes the same expansion on whole arrays. On the extended reals the two agree entry by entry with
  no law of arithmetic beyond `0 + a = a`: both sides group the three terms the same way and multiply by the same
  word `2.0` on the left, a change of float format is the identity, a lane sum and a host sum over one axis are
  the same finite sum (the host's starting from a zero it adds), and a matrix product into a zero accumulator is the
  host's product. So the precondition (finite inputs) is never opened.
  The parts: `Spec` states the expansion as one function of the two arrays; `RefValue` reads the reference's run
  to it; `Payload` reads one stored block to it, entry by entry; `KernelValue` lays the 64 blocks over the result
  array. The three frames are the generated ones (the reference's is its run with the result dropped), and the
  idealization rewrote nothing, so its statement is `True`.
-/
import proofs.«134107_j16320875725288_1_alg».proof.Defs
import proofs.«134107_j16320875725288_1_alg».proof.Proof.Gen.Kernel
import proofs.«134107_j16320875725288_1_alg».proof.Proof.Gen.Kernel.Skeleton
import proofs.«134107_j16320875725288_1_alg».proof.Proof.Gen.Kernel.Launch
import proofs.«134107_j16320875725288_1_alg».proof.Proof.Gen.Kernel.Points
import proofs.«134107_j16320875725288_1_alg».proof.Proof.Gen.Kernel.Frame
import proofs.«134107_j16320875725288_1_alg».proof.Proof.Gen.KernelIdeal
import proofs.«134107_j16320875725288_1_alg».proof.Proof.Gen.KernelIdeal.Skeleton
import proofs.«134107_j16320875725288_1_alg».proof.Proof.Gen.KernelIdeal.Launch
import proofs.«134107_j16320875725288_1_alg».proof.Proof.Gen.KernelIdeal.Points
import proofs.«134107_j16320875725288_1_alg».proof.Proof.Gen.KernelIdeal.Frame
import proofs.«134107_j16320875725288_1_alg».proof.Proof.Gen.ReferenceIdeal
import proofs.«134107_j16320875725288_1_alg».proof.Proof.Gen.Pre_finite_inputs
import proofs.«134107_j16320875725288_1_alg».proof.Proof.Gen.KernelIdeal.Value
import proofs.«134107_j16320875725288_1_alg».proof.Proof.Gen.ReferenceIdeal.Run
import proofs.«134107_j16320875725288_1_alg».proof.Proof.Gen.ReferenceIdeal.Read
import Idealize.ShloMosaic.Adequacy
import Idealize.ShloMosaic.Init
import proofs.«134107_j16320875725288_1_alg».proof.Proof.RefValue
import proofs.«134107_j16320875725288_1_alg».proof.Proof.KernelValue

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the result array at the expanded squared distance of their arguments, and the
    arguments agree. -/
theorem algebraic : Cert.algebraic_KernelIdeal_ReferenceIdeal := by
  intro m ρ m' ρ' _ hagree
  refine ⟨fun c => Cert.SqDist.arr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
